-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x128 : Shape := ⟨3, ![32, 4096, 128]⟩
abbrev S128 : Shape := ⟨1, ![128]⟩
abbrev S512x128 : Shape := ⟨2, ![512, 128]⟩
abbrev S128x512 : Shape := ⟨2, ![128, 512]⟩
abbrev S_ : Shape := ⟨0, ![]⟩

class Facts : Prop where
  bcast_S_S32x4096x128 : S_.BroadcastsInDim S32x4096x128 (![] : Fin 0 → Fin S32x4096x128.rank)
  reducesTo_S32x4096x128_S_d0_1_2 : S32x4096x128.ReducesTo [0, 1, 2] S_
  h_S_ : 0 < S_.numel
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S32x4096x128 .f32) (main_arg1 : FVec F S128 .f32) (main_arg2 : FVec F S512x128 .f32) (main_arg3 : FVec F S128x512 .f32) : IVec S_ 1 :=
  let main_v0 : FVec F S32x4096x128 .f32 := Host.absf main_arg0
  let main_cst : FVec F S_ .f32 := constant S_ .f32 0x7F800000#32
  let main_v1 : FVec F S32x4096x128 .f32 := broadcastInDim S32x4096x128 ![] bcast_S_S32x4096x128 main_cst
  let main_v2 : IVec S32x4096x128 1 := cmpf .olt main_v0 main_v1
  let main_c : IVec S_ 1 := constantI S_ 1 1#1
  let main_v3 : IVec S_ 1 := (fun x v => Host.reduce IntOp.andi x v reducesTo_S32x4096x128_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Kernel.lean ====
abbrev S32x4096x128 : Shape := ⟨3, ![32, 4096, 128]⟩
abbrev S128 : Shape := ⟨1, ![128]⟩
abbrev S512x128 : Shape := ⟨2, ![512, 128]⟩
abbrev S128x512 : Shape := ⟨2, ![128, 512]⟩
abbrev S131072x128 : Shape := ⟨2, ![131072, 128]⟩
abbrev S1x128 : Shape := ⟨2, ![1, 128]⟩
abbrev S2048x128 : Shape := ⟨2, ![2048, 128]⟩
abbrev S2048x512 : Shape := ⟨2, ![2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S32x4096x128, .f32⟩
  | .hbm, ⟨1, _⟩ => ⟨S128, .f32⟩
  | .hbm, ⟨2, _⟩ => ⟨S512x128, .f32⟩
  | .hbm, ⟨3, _⟩ => ⟨S128x512, .f32⟩
  | .hbm, ⟨4, _⟩ => ⟨S131072x128, .f32⟩
  | .hbm, ⟨5, _⟩ => ⟨S1x128, .f32⟩
  | .hbm, ⟨6, _⟩ => ⟨S131072x128, .f32⟩
  | .hbm, ⟨7, _⟩ => ⟨S32x4096x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S512x128, .f32⟩
  | .local _ .vmem, ⟨4, _⟩ => ⟨S128x512, .f32⟩
  | .local _ .vmem, ⟨5, _⟩ => ⟨S2048x128, .f32⟩
  | .local _ .vmem, ⟨6, _⟩ => ⟨S2048x128, .f32⟩
  | _, _ => ⟨S32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x4096x128_S131072x128 : S32x4096x128.ShapeCasts S131072x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128x512_S128x512_0_0 : ∀ a, (![0, 0] : Fin 2 → Nat) a + S128x512.size a ≤ S128x512.size a
  h_S128x512 : 0 < S128x512.numel
  shapeCasts_S131072x128_S32x4096x128 : S131072x128.ShapeCasts S32x4096x128
  dot_S2048x128_S512x128_S2048x512_1_1_0_0_n_n_wf : DotDims.WF S2048x128 S512x128 S2048x512 [1] [1] [0] [0] [] []
  dot_S2048x512_S128x512_S2048x128_1_1_0_0_n_n_wf : DotDims.WF S2048x512 S128x512 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S131072x128.size a
  hwx0_4 : ∀ i : grid0.Coords, EltTy.bits .f32 = 32 ∨ (Rect.block (s := S131072x128) S2048x128.size (cc0_transform_4 i) (hinb0_4 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S128x512_S2048x128_1_1_0_0_n_n : DotDims S2048x512 S128x512 S2048x128 where
  lhsContracting := [1]
  rhsContracting := [1]
  lhsNonContracting := [0]
  rhsNonContracting := [0]
  lhsBatch := []
  rhsBatch := []
  wf := dot_S2048x512_S128x512_S2048x128_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096x128 : Shape := ⟨3, ![32, 4096, 128]⟩
abbrev S128 : Shape := ⟨1, ![128]⟩
abbrev S512x128 : Shape := ⟨2, ![512, 128]⟩
abbrev S128x512 : Shape := ⟨2, ![128, 512]⟩
abbrev S1x1x128 : Shape := ⟨3, ![1, 1, 128]⟩
abbrev S32x4096x512 : Shape := ⟨3, ![32, 4096, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32x4096x128, .f32⟩
  | .hbm, ⟨1, _⟩ => ⟨S128, .f32⟩
  | .hbm, ⟨2, _⟩ => ⟨S512x128, .f32⟩
  | .hbm, ⟨3, _⟩ => ⟨S128x512, .f32⟩
  | .hbm, ⟨4, _⟩ => ⟨S32x4096x128, .f32⟩
  | .hbm, ⟨5, _⟩ => ⟨S128, .f32⟩
  | .hbm, ⟨6, _⟩ => ⟨S1x1x128, .f32⟩
  | .hbm, ⟨7, _⟩ => ⟨S32x4096x128, .f32⟩
  | .hbm, ⟨8, _⟩ => ⟨S32x4096x128, .f32⟩
  | .hbm, ⟨9, _⟩ => ⟨S32x4096x512, .f32⟩
  | .hbm, ⟨10, _⟩ => ⟨S_, .f32⟩
  | .hbm, ⟨11, _⟩ => ⟨S32x4096x512, .f32⟩
  | .hbm, ⟨12, _⟩ => ⟨S32x4096x512, .f32⟩
  | .hbm, ⟨13, _⟩ => ⟨S32x4096x128, .f32⟩
  | _, _ => ⟨S32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x4096x128_0_1_2 : S1x1x128.BroadcastsInDim S32x4096x128 (![0, 1, 2] : Fin 3 → Fin S32x4096x128.rank)
  bcast_S_S32x4096x512 : S_.BroadcastsInDim S32x4096x512 (![] : Fin 0 → Fin S32x4096x512.rank)
  dot_S32x4096x128_S512x128_S32x4096x512_2_1_01_0_n_n_wf : DotDims.WF S32x4096x128 S512x128 S32x4096x512 [2] [1] [0, 1] [0] [] []
  dot_S32x4096x512_S128x512_S32x4096x128_2_1_01_0_n_n_wf : DotDims.WF S32x4096x512 S128x512 S32x4096x128 [2] [1] [0, 1] [0] [] []

variable [Facts₀]

def dot_S32x4096x128_S512x128_S32x4096x512_2_1_01_0_n_n : DotDims S32x4096x128 S512x128 S32x4096x512 where
  lhsContracting := [2]
  rhsContracting := [1]
  lhsNonContracting := [0, 1]
  rhsNonContracting := [0]
  lhsBatch := []
  rhsBatch := []
  wf := dot_S32x4096x128_S512x128_S32x4096x512_2_1_01_0_n_n_wf
def dot_S32x4096x512_S128x512_S32x4096x128_2_1_01_0_n_n : DotDims S32x4096x512 S128x512 S32x4096x128 where
  lhsContracting := [2]
  rhsContracting := [1]
  lhsNonContracting := [0, 1]
  rhsNonContracting := [0]
  lhsBatch := []
  rhsBatch := []
  wf := dot_S32x4096x512_S128x512_S32x4096x128_2_1_01_0_n_n_wf

class Facts : Prop extends Facts₀ where

variable [Facts]
-- ==== Proof.Layer.lean ====
/-
  The feed-forward layer both programs compute, written once as a function of one token's row.

  For a token with features x₀ … x₁₂₇ the layer forms q_k = cos x_k · cos θ_k (the expectation ⟨Z⟩ of a
  qubit rotated by x_k and then by θ_k), the hidden activations h_f = max(Σ_k q_k · W1[f,k], 0) for
  f < 512, and the outputs o_e = Σ_f h_f · W2[e,f] for e < 128. On the extended reals every operation
  here is the textbook one, so the two programs agree as soon as each is shown to apply `rowOut` to the
  same row of the same arrays: no law of arithmetic beyond that is used.
-/
import Idealize.ShloMosaic.PureOps.Ideal
import Idealize.ShloMosaic.Lib.ValueIdx

noncomputable section

open scoped BigOperators

namespace Cert.QuantumFfn

open Idealize.ShloMosaic Idealize.ShloMosaic.ValueIdx

/-- The weight matrices as the programs hold them: W1 is [512, 128], W2 is [128, 512]. -/
abbrev W1Arr : Type := (⟨2, ![512, 128]⟩ : Shape).Idx → EReal
abbrev W2Arr : Type := (⟨2, ![128, 512]⟩ : Shape).Idx → EReal

/-- Hidden unit `f` of one token: the rectified inner product of the measured qubits with row `f` of W1.
    The zero of the rectifier is kept as the pattern both programs print. -/
def hiddenUnit (xrow th : Fin 128 → EReal) (w1 : W1Arr) (f : Fin 512) : EReal :=
  max (∑ k : Fin 128, Ideal.cos (xrow k) * Ideal.cos (th k) * w1 (ix2 f k)) (Ideal.ofBits .f32 0x00000000#32)

/-- Output feature `e` of one token: the inner product of its hidden units with row `e` of W2. -/
def rowOut (xrow th : Fin 128 → EReal) (w1 : W1Arr) (w2 : W2Arr) (e : Fin 128) : EReal :=
  ∑ f : Fin 512, hiddenUnit xrow th w1 f * w2 (ix2 e f)

/-- The layer over the [32, 4096, 128] batch: token (b, s) is row (b, s, ·) of `x`. -/
def layer3 (x : (⟨3, ![32, 4096, 128]⟩ : Shape).Idx → EReal) (th : (⟨1, ![128]⟩ : Shape).Idx → EReal)
    (w1 : W1Arr) (w2 : W2Arr) : (⟨3, ![32, 4096, 128]⟩ : Shape).Idx → EReal :=
  fun i => rowOut (fun k => x (ix3 (n0 := 32) (n1 := 4096) (n2 := 128) (i 0) (i 1) k)) (fun k => th (ix1 k)) w1 w2 (i 2)

/-- The same layer over the tokens laid out as the 131072 rows of a matrix, θ as a one-row matrix. -/
def layer2 (x : (⟨2, ![131072, 128]⟩ : Shape).Idx → EReal) (th : (⟨2, ![1, 128]⟩ : Shape).Idx → EReal)
    (w1 : W1Arr) (w2 : W2Arr) : (⟨2, ![131072, 128]⟩ : Shape).Idx → EReal :=
  fun i => rowOut (fun k => x (ix2 (n0 := 131072) (n1 := 128) (i 0) k)) (fun k => th (ix2 (n0 := 1) (n1 := 128) 0 k)) w1 w2 (i 1)

end Cert.QuantumFfn

end
-- ==== Proof.RefValue.lean ====
/-
  The reference, read at an index, is the layer of `Layer.lean`.

  jnp's reference keeps the batch three-dimensional: it multiplies cos x by cos θ broadcast along the
  last axis, contracts the feature axis with W1 (einsum 'bse,fe->bsf'), rectifies against a broadcast
  zero, and contracts the hidden axis with W2 (einsum 'bsf,ef->bse'). Each contraction read at an
  output index (b, s, ·) is a sum over one coordinate with (b, s) fixed, so the element at (b, s, e) is
  `rowOut` of row (b, s, ·) of x: the index maps of the two contractions and of the two broadcasts are
  identified with coordinates, and nothing else is needed.
-/
import proofs.«102679_j65481071404696_1_alg».proof.Proof.Gen.ReferenceIdeal.Read
import proofs.«102679_j65481071404696_1_alg».proof.Proof.Layer

noncomputable section

open scoped BigOperators

namespace Cert.ReferenceIdeal.RefValue

open Cert.ReferenceIdeal Cert.ReferenceIdeal.Read Idealize.ShloMosaic Idealize.ShloMosaic.ValueIdx Cert.QuantumFfn

/-- The second contraction reads W2 at (e, f). -/
theorem w2_index (i : S32x4096x128.Idx) (f : Fin 512) : ridx_main_v7 i f = ix2 (n0 := 128) (n1 := 512) (i 2) f :=
  funext fun a => Fin.ext (by match a with | ⟨0, _⟩ => rfl | ⟨1, _⟩ => rfl)

/-- The first contraction, under the second, reads the product at (b, s, k) … -/
theorem q_index (i : S32x4096x128.Idx) (f : Fin 512) (k : Fin 128) :
    lidx_main_v5 (lidx_main_v7 i f) k = ix3 (n0 := 32) (n1 := 4096) (n2 := 128) (i 0) (i 1) k :=
  funext fun a => Fin.ext (by match a with | ⟨0, _⟩ => rfl | ⟨1, _⟩ => rfl | ⟨2, _⟩ => rfl)

/-- … and W1 at (f, k). -/
theorem w1_index (i : S32x4096x128.Idx) (f : Fin 512) (k : Fin 128) :
    ridx_main_v5 (lidx_main_v7 i f) k = ix2 f k :=
  funext fun a => Fin.ext (by match a with | ⟨0, _⟩ => rfl | ⟨1, _⟩ => rfl)

/-- The two broadcasts of cos θ read it at the last coordinate. -/
theorem theta_index (j : S32x4096x128.Idx) : idx_main_v2 (idx_main_v3 j) = ix1 (n := 128) (j 2) :=
  funext fun a => Fin.ext (by match a with | ⟨0, _⟩ => rfl)

/-- The product cos x · cos θ at (b, s, k). -/
theorem q_apply (x0 : S32x4096x128.Idx → EReal) (x1 : S128.Idx → EReal) (j : S32x4096x128.Idx) :
    val_main_v4 (F := Ideal) x0 x1 j = Ideal.cos (x0 j) * Ideal.cos (x1 (ix1 (n := 128) (j 2))) := by
  rw [val_main_v4_apply, val_main_v0_apply, val_main_v3_apply, val_main_v2_apply, val_main_v1_apply, theta_index]
  rfl

/-- The rectified first contraction at (b, s, f) is the hidden unit `f` of token (b, s). -/
theorem hidden_apply (x0 : S32x4096x128.Idx → EReal) (x1 : S128.Idx → EReal) (x2 : S512x128.Idx → EReal)
    (i : S32x4096x128.Idx) (f : Fin 512) :
    val_main_v6 (F := Ideal) x0 x1 x2 (lidx_main_v7 i f)
      = hiddenUnit (fun k => x0 (ix3 (n0 := 32) (n1 := 4096) (n2 := 128) (i 0) (i 1) k)) (fun k => x1 (ix1 k)) x2 f := by
  rw [val_main_v6_apply, val_main_v5_apply, val_main_call0_v0_apply, val_main_call0_cst_apply]
  unfold hiddenUnit
  show max _ _ = max _ _
  refine congrArg (fun s => max s _) (Finset.sum_congr rfl fun k _ => ?_)
  rw [q_index, w1_index, q_apply]

/-- The reference's result is the layer of its arguments. -/
theorem result_eq (x0 : S32x4096x128.Idx → EReal) (x1 : S128.Idx → EReal) (x2 : S512x128.Idx → EReal)
    (x3 : S128x512.Idx → EReal) :
    val_main_v7 (F := Ideal) x0 x1 x2 x3 = layer3 x0 x1 x2 x3 := by
  funext i
  rw [val_main_v7_apply]
  unfold layer3 rowOut
  refine Finset.sum_congr rfl fun f _ => ?_
  rw [w2_index, hidden_apply]

end Cert.ReferenceIdeal.RefValue

end
-- ==== Proof.Body.lean ====
/-
  What the kernel body stores for one block of 2048 tokens, read at an index.

  The body loads a [2048, 128] block of x, the one row of θ, and the two weight matrices whole; it forms
  cos x · cos θ (θ's row broadcast down the block), multiplies by W1 contracting the feature axis of both
  operands, rectifies against a splat zero, multiplies by W2 contracting the hidden axis of both operands,
  and stores the result. The narrowing to bf16 before each product is the identity on the extended reals,
  and each product into a zero accumulator is a plain sum over the one contracted coordinate. So the
  stored element at (p, e) is `rowOut` of row p of the block.
-/
import proofs.«102679_j65481071404696_1_alg».proof.Proof.Gen.KernelIdeal.Skeleton
import proofs.«102679_j65481071404696_1_alg».proof.Proof.Layer
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.QuantumFfn

/-! ## The two products' operand indices, coordinate by coordinate -/

theorem lhs_up_0 (j : S2048x512.Idx) (q : dot_S2048x128_S512x128_S2048x512_1_1_0_0_n_n.contr.Idx) :
    (dot_S2048x128_S512x128_S2048x512_1_1_0_0_n_n.lhsIdx j q 0).val = (j 0).val := by
  unfold DotDims.lhsIdx
  rw [dif_neg (show ¬(0 : Fin S2048x128.rank) ∈ dot_S2048x128_S512x128_S2048x512_1_1_0_0_n_n.lhsBatch by decide), dif_pos (show (0 : Fin S2048x128.rank) ∈ dot_S2048x128_S512x128_S2048x512_1_1_0_0_n_n.lhsNonContracting by decide)]
  rfl
theorem lhs_up_1 (j : S2048x512.Idx) (q : dot_S2048x128_S512x128_S2048x512_1_1_0_0_n_n.contr.Idx) :
    (dot_S2048x128_S512x128_S2048x512_1_1_0_0_n_n.lhsIdx j q 1).val = (q ⟨0, by decide⟩).val :=
  dot_S2048x128_S512x128_S2048x512_1_1_0_0_n_n.lhsIdx_val_of_single rfl j q
theorem rhs_up_0 (j : S2048x512.Idx) (q : dot_S2048x128_S512x128_S2048x512_1_1_0_0_n_n.contr.Idx) :
    (dot_S2048x128_S512x128_S2048x512_1_1_0_0_n_n.rhsIdx j q 0).val = (j 1).val := by
  unfold DotDims.rhsIdx
  rw [dif_neg (show ¬(0 : Fin S512x128.rank) ∈ dot_S2048x128_S512x128_S2048x512_1_1_0_0_n_n.rhsBatch by decide), dif_pos (show (0 : Fin S512x128.rank) ∈ dot_S2048x128_S512x128_S2048x512_1_1_0_0_n_n.rhsNonContracting by decide)]
  rfl
theorem rhs_up_1 (j : S2048x512.Idx) (q : dot_S2048x128_S512x128_S2048x512_1_1_0_0_n_n.contr.Idx) :
    (dot_S2048x128_S512x128_S2048x512_1_1_0_0_n_n.rhsIdx j q 1).val = (q ⟨0, by decide⟩).val :=
  dot_S2048x128_S512x128_S2048x512_1_1_0_0_n_n.rhsIdx_val_of_single rfl j q

theorem lhs_down_0 (j : S2048x128.Idx) (q : dot_S2048x512_S128x512_S2048x128_1_1_0_0_n_n.contr.Idx) :
    (dot_S2048x512_S128x512_S2048x128_1_1_0_0_n_n.lhsIdx j q 0).val = (j 0).val := by
  unfold DotDims.lhsIdx
  rw [dif_neg (show ¬(0 : Fin S2048x512.rank) ∈ dot_S2048x512_S128x512_S2048x128_1_1_0_0_n_n.lhsBatch by decide), dif_pos (show (0 : Fin S2048x512.rank) ∈ dot_S2048x512_S128x512_S2048x128_1_1_0_0_n_n.lhsNonContracting by decide)]
  rfl
theorem lhs_down_1 (j : S2048x128.Idx) (q : dot_S2048x512_S128x512_S2048x128_1_1_0_0_n_n.contr.Idx) :
    (dot_S2048x512_S128x512_S2048x128_1_1_0_0_n_n.lhsIdx j q 1).val = (q ⟨0, by decide⟩).val :=
  dot_S2048x512_S128x512_S2048x128_1_1_0_0_n_n.lhsIdx_val_of_single rfl j q
theorem rhs_down_0 (j : S2048x128.Idx) (q : dot_S2048x512_S128x512_S2048x128_1_1_0_0_n_n.contr.Idx) :
    (dot_S2048x512_S128x512_S2048x128_1_1_0_0_n_n.rhsIdx j q 0).val = (j 1).val := by
  unfold DotDims.rhsIdx
  rw [dif_neg (show ¬(0 : Fin S128x512.rank) ∈ dot_S2048x512_S128x512_S2048x128_1_1_0_0_n_n.rhsBatch by decide), dif_pos (show (0 : Fin S128x512.rank) ∈ dot_S2048x512_S128x512_S2048x128_1_1_0_0_n_n.rhsNonContracting by decide)]
  rfl
theorem rhs_down_1 (j : S2048x128.Idx) (q : dot_S2048x512_S128x512_S2048x128_1_1_0_0_n_n.contr.Idx) :
    (dot_S2048x512_S128x512_S2048x128_1_1_0_0_n_n.rhsIdx j q 1).val = (q ⟨0, by decide⟩).val :=
  dot_S2048x512_S128x512_S2048x128_1_1_0_0_n_n.rhsIdx_val_of_single rfl j q

/-! ## The two products at an index -/

/-- The first product at (p, f): the sum over the 128 features of the left operand's row p against
    row f of the right operand (both operands are contracted along their second axis). -/
theorem up_apply {φ₁ φ₂ : FTy} (l : FVec Ideal S2048x128 φ₁) (r : FVec Ideal S512x128 φ₂) (p : Fin 2048) (f : Fin 512) :
    matmul dot_S2048x128_S512x128_S2048x512_1_1_0_0_n_n none l r (constant S2048x512 .f32 0x00000000#32) (ix2 p f)
      = ∑ k : Fin 128, l (ix2 p k) * r (ix2 f k) := by
  simp only [matmul]
  rw [Ideal.matmul_constant_zero_apply, ← Equiv.sum_comp (ValueIdx.contrEquiv1 dot_S2048x128_S512x128_S2048x512_1_1_0_0_n_n 128 rfl rfl).symm]
  refine Finset.sum_congr rfl fun k _ => ?_
  have hk := ValueIdx.contrEquiv1_symm_val dot_S2048x128_S512x128_S2048x512_1_1_0_0_n_n 128 rfl rfl k
  have el : dot_S2048x128_S512x128_S2048x512_1_1_0_0_n_n.lhsIdx (ix2 p f) ((ValueIdx.contrEquiv1 dot_S2048x128_S512x128_S2048x512_1_1_0_0_n_n 128 rfl rfl).symm k) = ix2 p k := funext fun a => Fin.ext (by
    match a with
    | ⟨0, _⟩ => exact lhs_up_0 _ _
    | ⟨1, _⟩ => exact (lhs_up_1 _ _).trans hk)
  have er : dot_S2048x128_S512x128_S2048x512_1_1_0_0_n_n.rhsIdx (ix2 p f) ((ValueIdx.contrEquiv1 dot_S2048x128_S512x128_S2048x512_1_1_0_0_n_n 128 rfl rfl).symm k) = ix2 f k := funext fun a => Fin.ext (by
    match a with
    | ⟨0, _⟩ => exact rhs_up_0 _ _
    | ⟨1, _⟩ => exact (rhs_up_1 _ _).trans hk)
  rw [el, er]

/-- The second product at (p, e): the sum over the 512 hidden units of the left operand's row p against
    row e of the right operand. -/
theorem down_apply {φ₁ φ₂ : FTy} (l : FVec Ideal S2048x512 φ₁) (r : FVec Ideal S128x512 φ₂) (p : Fin 2048) (e : Fin 128) :
    matmul dot_S2048x512_S128x512_S2048x128_1_1_0_0_n_n none l r (constant S2048x128 .f32 0x00000000#32) (ix2 p e)
      = ∑ f : Fin 512, l (ix2 p f) * r (ix2 e f) := by
  simp only [matmul]
  rw [Ideal.matmul_constant_zero_apply, ← Equiv.sum_comp (ValueIdx.contrEquiv1 dot_S2048x512_S128x512_S2048x128_1_1_0_0_n_n 512 rfl rfl).symm]
  refine Finset.sum_congr rfl fun k _ => ?_
  have hk := ValueIdx.contrEquiv1_symm_val dot_S2048x512_S128x512_S2048x128_1_1_0_0_n_n 512 rfl rfl k
  have el : dot_S2048x512_S128x512_S2048x128_1_1_0_0_n_n.lhsIdx (ix2 p e) ((ValueIdx.contrEquiv1 dot_S2048x512_S128x512_S2048x128_1_1_0_0_n_n 512 rfl rfl).symm k) = ix2 p k := funext fun a => Fin.ext (by
    match a with
    | ⟨0, _⟩ => exact lhs_down_0 _ _
    | ⟨1, _⟩ => exact (lhs_down_1 _ _).trans hk)
  have er : dot_S2048x512_S128x512_S2048x128_1_1_0_0_n_n.rhsIdx (ix2 p e) ((ValueIdx.contrEquiv1 dot_S2048x512_S128x512_S2048x128_1_1_0_0_n_n 512 rfl rfl).symm k) = ix2 e k := funext fun a => Fin.ext (by
    match a with
    | ⟨0, _⟩ => exact rhs_down_0 _ _
    | ⟨1, _⟩ => exact (rhs_down_1 _ _).trans hk)
  rw [el, er]

/-! ## The pointwise part -/

/-- θ's row broadcast down the block reads the row at the column. -/
theorem theta_bcast (v : FVec Ideal S1x128 .f32) (p : Fin 2048) (k : Fin 128) :
    broadcastTo S2048x128 v broadcasts_S1x128_S2048x128 (ix2 p k) = v (ix2 0 k) :=
  broadcastTo_apply v broadcasts_S1x128_S2048x128 (ix2 p k) (ix2 0 k) (fun a => match a with
    | ⟨0, _⟩ => by show 0 = if (1 : Nat) = 1 then 0 else p.val; rw [if_pos rfl]
    | ⟨1, _⟩ => by show k.val = if (128 : Nat) = 1 then 0 else k.val; rw [if_neg (by decide)])

/-- The measured qubits of row p: cos x · cos θ at (p, k). -/
theorem qubits_apply (x0 : Vec Ideal S2048x128 .f32) (x1 : Vec Ideal S1x128 .f32) (p : Fin 2048) (k : Fin 128) :
    (mulf (cos (shapeCast S2048x128 x0 shapeCasts_S2048x128_S2048x128))
        (broadcastTo S2048x128 (cos (shapeCast S1x128 x1 shapeCasts_S1x128_S1x128)) broadcasts_S1x128_S2048x128)
        : FVec Ideal S2048x128 .f32) (ix2 p k)
      = Ideal.cos (x0 (ix2 p k)) * Ideal.cos (x1 (ix2 0 k)) := by
  rw [shapeCast_self, shapeCast_self, mulf_apply, theta_bcast]
  rfl

/-! ## The stored value -/

/-- What the body stores at (p, e) is the layer's output feature e for row p of the x block. -/
theorem stored_apply (x0 : Vec Ideal S2048x128 .f32) (x1 : Vec Ideal S1x128 .f32) (x2 : Vec Ideal S512x128 .f32)
    (x3 : Vec Ideal S128x512 .f32) (p : Fin 2048) (e : Fin 128) :
    k0_pay1 (F := Ideal) x0 x1 x2 x3 (ix2 p e)
      = rowOut (fun k => x0 (ix2 p k)) (fun k => x1 (ix2 0 k)) x2 x3 e := by
  unfold k0_pay1
  rw [down_apply]
  unfold rowOut
  refine Finset.sum_congr rfl fun f _ => ?_
  rw [truncf_apply, truncf_apply, maximumf_apply, up_apply]
  unfold hiddenUnit
  refine congrArg (fun s => max s _ * _) (Finset.sum_congr rfl fun k _ => ?_)
  rw [truncf_apply, truncf_apply, qubits_apply]

end Cert.KernelIdeal.Body

end
-- ==== Proof.Blocks.lean ====
/-
  From the blocks the grid points write back to the whole output matrix.

  The grid has 64 points; point t stages rows 2048·t … 2048·t + 2047 of the token matrix (the reshaped x),
  the whole of θ's row and of both weight matrices, and writes back the same rows of the output matrix.
  What it writes back is, by the body's stored value, the layer applied to those rows; the 64 row blocks
  tile the 131072 rows, so after the run the output matrix is the layer of the whole token matrix.
-/
import proofs.«102679_j65481071404696_1_alg».proof.Proof.Gen.KernelIdeal.Frame
import proofs.«102679_j65481071404696_1_alg».proof.Proof.Body

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.QuantumFfn

variable (m : (ℓ : Loc nD τ sig) → Buf (Elt Ideal) ℓ)

theorem zero_offsets : (![0, 0] : Fin 2 → Nat) = fun _ => 0 := funext fun a => by fin_cases a <;> rfl

/-- The printed index maps over the grid: the x window and the output window are both at row block t,
    column block 0; θ and the two weight matrices are always at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A block of the body's stored values is the layer on the matching rows: stated over plain arrays, with
    the block's rows tied to the matrix's by hypotheses. -/
theorem block_rows (X0 : S131072x128.Idx → EReal) (X1 : S1x128.Idx → EReal) (X2 : S512x128.Idx → EReal) (X3 : S128x512.Idx → EReal)
    (x0 : S2048x128.Idx → EReal) (x1 : S1x128.Idx → EReal) (x2 : S512x128.Idx → EReal) (x3 : S128x512.Idx → EReal)
    (i : S131072x128.Idx) (p : Fin 2048) (e : Fin 128)
    (h0 : ∀ k : Fin 128, x0 (ix2 p k) = X0 (ix2 (n0 := 131072) (n1 := 128) (i 0) k))
    (h1 : ∀ k : Fin 128, x1 (ix2 0 k) = X1 (ix2 (n0 := 1) (n1 := 128) 0 k)) (h2 : x2 = X2) (h3 : x3 = X3) (he : (i 1).val = e.val) :
    k0_pay1 (F := Ideal) x0 x1 x2 x3 (ix2 p e) = layer2 X0 X1 X2 X3 i := by
  rw [Body.stored_apply]
  unfold layer2
  subst h2 h3
  simp only [h0, h1]
  exact congrArg (rowOut _ _ _ _) (Fin.ext he.symm)

/-- What point t writes back to the output matrix is block t of the layer of the arrays the region finds. -/
theorem flushed_eq (c : Dev nD) (t : Fin cfg0.N) :
    (dats m 0 c).flushed 4 t = ((cfg0.win 4).blk t).view.read (Elt Ideal)
      (layer2 (V m c main_v0) (V m c main_v1) (V m c main_arg2) (V m c main_arg3)) := by
  show (cfg0.win 4).cut (grid0.coords t) ((dats m 0 c).after 4 t) = _
  rw [after0_4]
  unfold out0_4
  rw [View.canon_unit_zero zero_offsets]
  simp only [View.ld_unit_zero (S := S2048x128) zero_offsets, View.ld_unit_zero (S := S1x128) zero_offsets,
    View.ld_unit_zero (S := S512x128) zero_offsets, View.ld_unit_zero (S := S128x512) zero_offsets]
  obtain ⟨a0, a1, b0, b1, c0, c1, d0, d1, o0, o1⟩ := index_maps t
  funext j
  obtain ⟨p, e, rfl⟩ : ∃ (p : Fin 2048) (e : Fin 128), j = ix2 p e := ⟨j 0, j 1, eq_ix2 j⟩
  show k0_pay1 (F := Ideal) (iblk m c 0 t) (iblk m c 1 t) (iblk m c 2 t) (iblk m c 3 t) (ix2 p e)
    = layer2 (V m c main_v0) (V m c main_v1) (V m c main_arg2) (V m c main_arg3) (((cfg0.win 4).blk t).view.emb (ix2 p e))
  refine block_rows (V m c main_v0) (V m c main_v1) (V m c main_arg2) (V m c main_arg3)
    (iblk m c 0 t) (iblk m c 1 t) (iblk m c 2 t) (iblk m c 3 t) (((cfg0.win 4).blk t).view.emb (ix2 p e)) p e ?_ ?_ ?_ ?_ ?_
  · intro k
    show V m c main_v0 (((cfg0.win 0).blk t).view.emb (ix2 p k)) = V m c main_v0 _
    refine congrArg (V m c main_v0) (funext fun a => Fin.ext ?_)
    match a with
    | ⟨0, _⟩ => show win0_0.index t (0 : Fin 2) * 2048 + 1 * p.val = win0_4.index t (0 : Fin 2) * 2048 + 1 * p.val; omega
    | ⟨1, _⟩ => show win0_0.index t (1 : Fin 2) * 128 + 1 * k.val = k.val; omega
  · intro k
    show V m c main_v1 (((cfg0.win 1).blk t).view.emb (ix2 0 k)) = V m c main_v1 _
    refine congrArg (V m c main_v1) (funext fun a => Fin.ext ?_)
    match a with
    | ⟨0, _⟩ => show win0_1.index t (0 : Fin 2) * 1 + 1 * 0 = 0; omega
    | ⟨1, _⟩ => show win0_1.index t (1 : Fin 2) * 128 + 1 * k.val = k.val; omega
  · funext y
    show V m c main_arg2 (((cfg0.win 2).blk t).view.emb y) = V m c main_arg2 y
    refine congrArg (V m c main_arg2) (funext fun a => Fin.ext ?_)
    match a with
    | ⟨0, _⟩ => show win0_2.index t (0 : Fin 2) * 512 + 1 * (y 0).val = (y 0).val; omega
    | ⟨1, _⟩ => show win0_2.index t (1 : Fin 2) * 128 + 1 * (y 1).val = (y 1).val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 2) * 128 + 1 * (y 0).val = (y 0).val; omega
    | ⟨1, _⟩ => show win0_3.index t (1 : Fin 2) * 512 + 1 * (y 1).val = (y 1).val; omega
  · show win0_4.index t (1 : Fin 2) * 128 + 1 * e.val = e.val
    omega

/-- A row index is in point t's block iff each coordinate is in the block's range on its axis. -/
theorem mem_block (t : Fin cfg0.N) (i : S131072x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v2).slice (win0_4.rect t)).set ↔ _
  rw [View.set_slice_whole, Rect.mem_set_unit]
  exact Iff.rfl

/-- Every row of the output matrix is in the block of the point r / 2048. -/
theorem covered (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  have hN : cfg0.N = 64 := N_0
  let t : Fin cfg0.N := ⟨(i 0).val / 2048, by rw [hN]; omega⟩
  obtain ⟨-, -, -, -, -, -, -, -, o0, o1⟩ := index_maps t
  have ht : t.val = (i 0).val / 2048 := rfl
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 128 ≤ (i 1).val ∧ (i 1).val < win0_4.index t (1 : Fin 2) * 128 + 128; omega

/-- The output matrix after the run: the layer of the token matrix, θ's row and the weights as the region finds them. -/
theorem final (c : Dev nD) :
    (dats m 0 c).arrAt 4 cfg0.N = layer2 (V m c main_v0) (V m c main_v1) (V m c main_arg2) (V m c main_arg3) :=
  (dats m 0 c).arrAt_eq_of_cover 4 _ (fun t _ => flushed_eq m c t) covered

end Cert.KernelIdeal.Blocks

end
-- ==== Proof.Rows.lean ====
/-
  The layer commutes with laying the tokens out as rows.

  Row-major, token (b, s) of the [32, 4096, 128] batch is row 4096·b + s of the [131072, 128] token
  matrix, θ is the one row of a [1, 128] matrix, and the output matrix read back as a batch puts row
  4096·b + s at token (b, s). The layer acts row by row, so applying it to the token matrix and reading
  the result back as a batch is applying it to the batch.
-/
import proofs.«102679_j65481071404696_1_alg».proof.Proof.Layer
import Idealize.ShloMosaic.Lib.Pipeline.Value

noncomputable section

namespace Cert.QuantumFfn

open Idealize.ShloMosaic Idealize.ShloMosaic.ValueIdx

theorem layer_of_rows (X : (⟨3, ![32, 4096, 128]⟩ : Shape).Idx → EReal) (TH : (⟨1, ![128]⟩ : Shape).Idx → EReal)
    (w1 : W1Arr) (w2 : W2Arr)
    (hx : (⟨3, ![32, 4096, 128]⟩ : Shape).ShapeCasts ⟨2, ![131072, 128]⟩)
    (hth : (⟨1, ![128]⟩ : Shape).ShapeCasts ⟨2, ![1, 128]⟩)
    (hout : (⟨2, ![131072, 128]⟩ : Shape).ShapeCasts ⟨3, ![32, 4096, 128]⟩) :
    shapeCast ⟨3, ![32, 4096, 128]⟩
        (layer2 (shapeCast ⟨2, ![131072, 128]⟩ X hx) (shapeCast ⟨2, ![1, 128]⟩ TH hth) w1 w2) hout
      = layer3 X TH w1 w2 := by
  funext i
  have hb : (i 0).val < 32 := (i 0).isLt
  have hs : (i 1).val < 4096 := (i 1).isLt
  have he : (i 2).val < 128 := (i 2).isLt
  -- token (b, s) is row 4096·b + s
  let r : Fin 131072 := ⟨(i 0).val * 4096 + (i 1).val, by omega⟩
  rw [shapeCast_apply _ hout i (ix2 r (i 2)) (by rw [Shape.rowMajor_val_two, Shape.rowMajor_val_three]; rfl)]
  show rowOut (fun k => shapeCast ⟨2, ![131072, 128]⟩ X hx (ix2 r k)) (fun k => shapeCast ⟨2, ![1, 128]⟩ TH hth (ix2 0 k)) w1 w2 (i 2)
    = rowOut (fun k => X (ix3 (n0 := 32) (n1 := 4096) (n2 := 128) (i 0) (i 1) k)) (fun k => TH (ix1 k)) w1 w2 (i 2)
  have hrow : (fun k : Fin 128 => shapeCast ⟨2, ![131072, 128]⟩ X hx (ix2 r k))
      = fun k => X (ix3 (n0 := 32) (n1 := 4096) (n2 := 128) (i 0) (i 1) k) :=
    funext fun k => shapeCast_apply X hx (ix2 r k) (ix3 (n0 := 32) (n1 := 4096) (n2 := 128) (i 0) (i 1) k)
      (by rw [Shape.rowMajor_val_two, Shape.rowMajor_val_three]; rfl)
  have hth' : (fun k : Fin 128 => shapeCast ⟨2, ![1, 128]⟩ TH hth (ix2 0 k)) = fun k => TH (ix1 k) :=
    funext fun k => shapeCast_apply TH hth (ix2 0 k) (ix1 k)
      (by rw [Shape.rowMajor_val_two, Shape.rowMajor_val_one]; show k.val = 0 * 128 + k.val; omega)
  rw [hrow, hth']

end Cert.QuantumFfn

end
-- ==== Proof.KernelValue.lean ====
/-
  The kernel program's run, with its result named.

  Around the one kernel region the program reshapes x to the [131072, 128] token matrix and θ to a one-row
  matrix before it, and reshapes the output matrix back to the [32, 4096, 128] batch after it. The region
  leaves the output matrix at the layer of what it finds (the blocks, tiled), so the program's result is
  the layer of the token matrix read back as a batch, which is the layer of the batch.
-/
import proofs.«102679_j65481071404696_1_alg».proof.Proof.Gen.KernelIdeal.Frame
import proofs.«102679_j65481071404696_1_alg».proof.Proof.Blocks
import proofs.«102679_j65481071404696_1_alg».proof.Proof.Rows
import Idealize.ShloMosaic.Lib.StableHlo.Run

noncomputable section

namespace Cert.KernelIdeal.KernelValue

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.QuantumFfn

variable (m : (ℓ : Loc nD τ sig) → Buf (Elt Ideal) ℓ) (ρ : Dev nD → PrngReg)

/-- The token matrix the region finds is x reshaped. -/
theorem tokens_eq (c : Dev nD) :
    (V m c main_v0 : S131072x128.Idx → EReal)
      = shapeCast S131072x128 (m ((c : Thread nD τ).loc main_arg0)) shapeCasts_S32x4096x128_S131072x128 := by
  show StableHlo.after hostOps0 (fun b => m (c, b)) (Proc.devRef .tc main_v0) = _
  after_results
  rfl

/-- The one-row matrix the region finds is θ reshaped. -/
theorem theta_eq (c : Dev nD) :
    (V m c main_v1 : S1x128.Idx → EReal)
      = shapeCast S1x128 (m ((c : Thread nD τ).loc main_arg1)) shapeCasts_S128_S1x128 := by
  show StableHlo.after hostOps0 (fun b => m (c, b)) (Proc.devRef .tc main_v1) = _
  after_results
  rfl

/-- The program's result is the output matrix after the region, reshaped to the batch. -/
theorem tail_eq (c : Dev nD) :
    (Pipeline.afterTail₀ cfgs (dats m) 0 (V0 m) [hostOps1] c main_v3 : S32x4096x128.Idx → EReal)
      = shapeCast S32x4096x128 ((dats m 0 c).arrAt 4 cfg0.N) shapeCasts_S131072x128_S32x4096x128 := by
  unfold Pipeline.afterTail₀
  show StableHlo.after hostOps1 _ (Proc.devRef .tc main_v3) = _
  after_results
  exact congrArg (fun Y : S131072x128.Idx → EReal => shapeCast S32x4096x128 Y shapeCasts_S131072x128_S32x4096x128)
    (Pipeline.withArrays_arr spec0 launch0.win.arr_inj c (V0 m c) (fun w => (dats m 0 c).arrAt w cfg0.N) 4)

/-- The result as one function of the arguments. -/
theorem result_eq (c : Dev nD) :
    (Pipeline.afterTail₀ cfgs (dats m) 0 (V0 m) [hostOps1] c main_v3 : S32x4096x128.Idx → EReal)
      = layer3 (m ((c : Thread nD τ).loc main_arg0)) (m ((c : Thread nD τ).loc main_arg1))
          (m ((c : Thread nD τ).loc main_arg2)) (m ((c : Thread nD τ).loc main_arg3)) := by
  rw [tail_eq, Blocks.final, tokens_eq, theta_eq, V_main_arg2, V_main_arg3]
  exact layer_of_rows _ _ _ _ _ _ _

/-- Every weakly fair execution of the kernel program terminates with its result at the layer of the
    arguments and the arguments unchanged. -/
theorem run : θ_run defs (onTc (τ := τ) (main (F := Ideal))) ⟨m, fun _ => 0, ρ⟩ fun r => ∀ c : Dev nD,
      r.2.mem ((c.tc : Thread nD τ).loc main_v3)
        = layer3 (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KernelValue

end
-- ==== Proof.lean ====
/-
  The certificate of the quantum-expectation feed-forward layer.

  Both programs compute, for each of the 32 · 4096 tokens, q = cos x · cos θ over the 128 features, the
  hidden activations max(q · W1ᵀ, 0) over 512 units, and the output (hidden) · W2ᵀ over 128 features.
  The kernel program lays the tokens out as the 131072 rows of a matrix and handles 2048 rows per grid
  point with two matrix products; the reference keeps the batch three-dimensional and contracts with two
  einsums. On the extended reals the narrowing of the products' operands is the identity and each product
  is a plain sum over the contracted coordinate, so each side is the same row function `rowOut` applied
  to the same row: the kernel's by reading the stored block at an index, tiling the blocks over the rows
  and undoing the two reshapes; the reference's by reading its operations at an index. No law of
  arithmetic is needed beyond that, and the finiteness of the inputs is never used.

  The three frames are the generated ones (the reference's is its run with the result dropped), and the
  idealization rewrote nothing, so `preserves` is trivial.
-/
import proofs.«102679_j65481071404696_1_alg».proof.Defs
import proofs.«102679_j65481071404696_1_alg».proof.Proof.Gen.Kernel
import proofs.«102679_j65481071404696_1_alg».proof.Proof.Gen.Kernel.Skeleton
import proofs.«102679_j65481071404696_1_alg».proof.Proof.Gen.Kernel.Launch
import proofs.«102679_j65481071404696_1_alg».proof.Proof.Gen.Kernel.Points
import proofs.«102679_j65481071404696_1_alg».proof.Proof.Gen.Kernel.Frame
import proofs.«102679_j65481071404696_1_alg».proof.Proof.Gen.KernelIdeal
import proofs.«102679_j65481071404696_1_alg».proof.Proof.Gen.KernelIdeal.Skeleton
import proofs.«102679_j65481071404696_1_alg».proof.Proof.Gen.KernelIdeal.Launch
import proofs.«102679_j65481071404696_1_alg».proof.Proof.Gen.KernelIdeal.Points
import proofs.«102679_j65481071404696_1_alg».proof.Proof.Gen.KernelIdeal.Frame
import proofs.«102679_j65481071404696_1_alg».proof.Proof.Gen.ReferenceIdeal
import proofs.«102679_j65481071404696_1_alg».proof.Proof.Gen.ReferenceIdeal.Run
import proofs.«102679_j65481071404696_1_alg».proof.Proof.Gen.ReferenceIdeal.Read
import proofs.«102679_j65481071404696_1_alg».proof.Proof.Gen.Pre_finite_inputs
import proofs.«102679_j65481071404696_1_alg».proof.Proof.RefValue
import proofs.«102679_j65481071404696_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, θ, W1 and W2 both programs end with the layer of those arrays: the
    kernel's result by `KernelValue.run`, the reference's by its run read at an index (`RefValue.result_eq`). -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
